-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S1024x768 : Shape := ⟨2, ![1024, 768]⟩
abbrev S128x1536 : Shape := ⟨2, ![128, 1536]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S128x1536 : S_.BroadcastsInDim S128x1536 (![] : Fin 0 → Fin S128x1536.rank)
  reducesTo_S128x1536_S_d0_1 : S128x1536.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x128 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x768 .f32) (main_arg1 : FVec F S1024x768 .f32) (main_arg2 : FVec F S128x1536 .f32) (main_arg3 : FVec F S128 .f32) (main_arg4 : FVec F S1x128 .f32) (main_arg5 : FVec F S1 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S128x1536 .f32 := Host.absf main_arg2
  let main_cst_2 : FVec F S_ .f32 := constant S_ .f32 0x7F800000#32
  let main_v10 : FVec F S128x1536 .f32 := broadcastInDim S128x1536 ![] bcast_S_S128x1536 main_cst_2
  let main_v11 : IVec S128x1536 1 := cmpf .olt main_v9 main_v10
  let main_c_3 : IVec S_ 1 := constantI S_ 1 1#1
  let main_v12 : IVec S_ 1 := (fun x v => Host.reduce IntOp.andi x v reducesTo_S128x1536_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S256x768 : Shape := ⟨2, ![256, 768]⟩
abbrev S1024x768 : Shape := ⟨2, ![1024, 768]⟩
abbrev S128x1536 : Shape := ⟨2, ![128, 1536]⟩
abbrev S128 : Shape := ⟨1, ![128]⟩
abbrev S1x128 : Shape := ⟨2, ![1, 128]⟩
abbrev S1 : Shape := ⟨1, ![1]⟩
abbrev S128x768 : Shape := ⟨2, ![128, 768]⟩
abbrev S768x128 : Shape := ⟨2, ![768, 128]⟩
abbrev S256x1024 : Shape := ⟨2, ![256, 1024]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩

abbrev nBuf : Space → Nat
  | .hbm => 11
  | .vmem => 11
  | .smem => 0
  | _ => 0

abbrev bufTy : (tb : Table) → Fin (tcTables nBuf tb) → BufTy
  | .hbm, ⟨0, _⟩ => ⟨S256x768, .f32⟩
  | .hbm, ⟨1, _⟩ => ⟨S1024x768, .f32⟩
  | .hbm, ⟨2, _⟩ => ⟨S128x1536, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S128x768, .f32⟩
  | .hbm, ⟨7, _⟩ => ⟨S768x128, .f32⟩
  | .hbm, ⟨8, _⟩ => ⟨S128x768, .f32⟩
  | .hbm, ⟨9, _⟩ => ⟨S768x128, .f32⟩
  | .hbm, ⟨10, _⟩ => ⟨S256x1024, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S768x128, .f32⟩
  | .local _ .vmem, ⟨5, _⟩ => ⟨S768x128, .f32⟩
  | .local _ .vmem, ⟨6, _⟩ => ⟨S128, .f32⟩
  | .local _ .vmem, ⟨7, _⟩ => ⟨S1x128, .f32⟩
  | .local _ .vmem, ⟨8, _⟩ => ⟨S1, .f32⟩
  | .local _ .vmem, ⟨9, _⟩ => ⟨S128x128, .f32⟩
  | .local _ .vmem, ⟨10, _⟩ => ⟨S128x128, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S128x1536_S128x768_0_0 : S128x1536.Slices ![0, 0] S128x768
  transposes_S128x768_S768x128_1_0 : S128x768.Transposes [1, 0] S768x128
  slices_S128x1536_S128x768_0_768 : S128x1536.Slices ![0, 768] S128x768
  inb_S128x768_S128x768_0_0 : ∀ a, (![0, 0] : Fin 2 → Nat) a + S128x768.size a ≤ S128x768.size a
  h_S128x768 : 0 < S128x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S128_S128_0 : ∀ a, (![0] : Fin 1 → Nat) a + S128.size a ≤ S128.size a
  h_S128 : 0 < S128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  shapeCasts_S1x128_S128 : S1x128.ShapeCasts S128
  reduces_S128x128x128_S128x128 : S128x128x128.Reduces [2] S128x128
  inpos_S1_p0 : ∀ a, (![0] : Fin 1 → Nat) a < S1.size a
  inb_S128x128_S128x128_0_0 : ∀ a, (![0, 0] : Fin 2 → Nat) a + S128x128.size a ≤ S128x128.size a
  h_S128x128 : 0 < S128x128.numel
  dot_S128x768_S768x128_S128x128_1_0_0_1_n_n_wf : DotDims.WF S128x768 S768x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S256x768.size a
  hwx0_0 : ∀ i : grid0.Coords, EltTy.bits .f32 = 32 ∨ (Rect.block (s := S256x768) S128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S1024x768.size a
  hwx0_1 : ∀ i : grid0.Coords, EltTy.bits .f32 = 32 ∨ (Rect.block (s := S1024x768) S128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x128.size a ≤ S768x128.size a
  hwx0_2 : ∀ i : grid0.Coords, EltTy.bits .f32 = 32 ∨ (Rect.block (s := S768x128) S768x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x128.size a ≤ S768x128.size a
  hwx0_3 : ∀ i : grid0.Coords, EltTy.bits .f32 = 32 ∨ (Rect.block (s := S768x128) S768x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S256x1024.size a
  hwx0_7 : ∀ i : grid0.Coords, EltTy.bits .f32 = 32 ∨ (Rect.block (s := S256x1024) S128x128.size (cc0_transform_7 i) (hinb0_7 i)).WholeWords (EltTy.packing .f32)

variable [Facts₀]

def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf

abbrev win0_0 : Pipeline.Window sig grid0 :=
  Pipeline.Window.ofSpec (Memref.whole main_arg0) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x768 : Shape := ⟨2, ![256, 768]⟩
abbrev S1024x768 : Shape := ⟨2, ![1024, 768]⟩
abbrev S128x1536 : Shape := ⟨2, ![128, 1536]⟩
abbrev S128 : Shape := ⟨1, ![128]⟩
abbrev S1x128 : Shape := ⟨2, ![1, 128]⟩
abbrev S1 : Shape := ⟨1, ![1]⟩
abbrev S128x768 : Shape := ⟨2, ![128, 768]⟩
abbrev S768x128 : Shape := ⟨2, ![768, 128]⟩
abbrev S256x128 : Shape := ⟨2, ![256, 128]⟩
abbrev S1024x128 : Shape := ⟨2, ![1024, 128]⟩
abbrev S256x1x128 : Shape := ⟨3, ![256, 1, 128]⟩
abbrev S1x1024x128 : Shape := ⟨3, ![1, 1024, 128]⟩
abbrev S256x1024x128 : Shape := ⟨3, ![256, 1024, 128]⟩
abbrev S1x1x128 : Shape := ⟨3, ![1, 1, 128]⟩
abbrev S_ : Shape := ⟨0, ![]⟩
abbrev S256x1024x1 : Shape := ⟨3, ![256, 1024, 1]⟩
abbrev S1x1x1 : Shape := ⟨3, ![1, 1, 1]⟩
abbrev S256x1024 : Shape := ⟨2, ![256, 1024]⟩

abbrev nBuf : Space → Nat
  | .hbm => 28
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S1024x768, .f32⟩
  | .hbm, ⟨2, _⟩ => ⟨S128x1536, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S128x768, .f32⟩
  | .hbm, ⟨7, _⟩ => ⟨S768x128, .f32⟩
  | .hbm, ⟨8, _⟩ => ⟨S256x128, .f32⟩
  | .hbm, ⟨9, _⟩ => ⟨S128x768, .f32⟩
  | .hbm, ⟨10, _⟩ => ⟨S768x128, .f32⟩
  | .hbm, ⟨11, _⟩ => ⟨S1024x128, .f32⟩
  | .hbm, ⟨12, _⟩ => ⟨S256x1x128, .f32⟩
  | .hbm, ⟨13, _⟩ => ⟨S1x1024x128, .f32⟩
  | .hbm, ⟨14, _⟩ => ⟨S256x1024x128, .f32⟩
  | .hbm, ⟨15, _⟩ => ⟨S256x1024x128, .f32⟩
  | .hbm, ⟨16, _⟩ => ⟨S256x1024x128, .f32⟩
  | .hbm, ⟨17, _⟩ => ⟨S1x1x128, .f32⟩
  | .hbm, ⟨18, _⟩ => ⟨S256x1024x128, .f32⟩
  | .hbm, ⟨19, _⟩ => ⟨S256x1024x128, .f32⟩
  | .hbm, ⟨20, _⟩ => ⟨S_, .f32⟩
  | .hbm, ⟨21, _⟩ => ⟨S256x1024x128, .f32⟩
  | .hbm, ⟨22, _⟩ => ⟨S256x1024x128, .f32⟩
  | .hbm, ⟨23, _⟩ => ⟨S256x1024x1, .f32⟩
  | .hbm, ⟨24, _⟩ => ⟨S1x1x1, .f32⟩
  | .hbm, ⟨25, _⟩ => ⟨S256x1024x1, .f32⟩
  | .hbm, ⟨26, _⟩ => ⟨S256x1024x1, .f32⟩
  | .hbm, ⟨27, _⟩ => ⟨S256x1024, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S128x1536_S128x768_0_0 : S128x1536.Slices ![0, 0] S128x768
  transposes_S128x768_S768x128_1_0 : S128x768.Transposes [1, 0] S768x128
  slices_S128x1536_S128x768_0_768 : S128x1536.Slices ![0, 768] S128x768
  bcast_S256x128_S256x1x128_0_2 : S256x128.BroadcastsInDim S256x1x128 (![0, 2] : Fin 2 → Fin S256x1x128.rank)
  bcast_S1024x128_S1x1024x128_1_2 : S1024x128.BroadcastsInDim S1x1024x128 (![1, 2] : Fin 2 → Fin S1x1024x128.rank)
  bcast_S256x1x128_S256x1024x128_0_1_2 : S256x1x128.BroadcastsInDim S256x1024x128 (![0, 1, 2] : Fin 3 → Fin S256x1024x128.rank)
  bcast_S1x1024x128_S256x1024x128_0_1_2 : S1x1024x128.BroadcastsInDim S256x1024x128 (![0, 1, 2] : Fin 3 → Fin S256x1024x128.rank)
  bcast_S128_S1x1x128_2 : S128.BroadcastsInDim S1x1x128 (![2] : Fin 1 → Fin S1x1x128.rank)
  bcast_S1x1x128_S256x1024x128_0_1_2 : S1x1x128.BroadcastsInDim S256x1024x128 (![0, 1, 2] : Fin 3 → Fin S256x1024x128.rank)
  bcast_S_S256x1024x128 : S_.BroadcastsInDim S256x1024x128 (![] : Fin 0 → Fin S256x1024x128.rank)
  bcast_S1_S1x1x1_2 : S1.BroadcastsInDim S1x1x1 (![2] : Fin 1 → Fin S1x1x1.rank)
  bcast_S1x1x1_S256x1024x1_0_1_2 : S1x1x1.BroadcastsInDim S256x1024x1 (![0, 1, 2] : Fin 3 → Fin S256x1024x1.rank)
  shapeCasts_S256x1024x1_S256x1024 : S256x1024x1.ShapeCasts S256x1024
  dot_S256x768_S768x128_S256x128_1_0_0_1_n_n_wf : DotDims.WF S256x768 S768x128 S256x128 [1] [0] [0] [1] [] []
  dot_S1024x768_S768x128_S1024x128_1_0_0_1_n_n_wf : DotDims.WF S1024x768 S768x128 S1024x128 [1] [0] [0] [1] [] []
  dot_S256x1024x128_S1x128_S256x1024x1_2_1_01_0_n_n_wf : DotDims.WF S256x1024x128 S1x128 S256x1024x1 [2] [1] [0, 1] [0] [] []

variable [Facts₀]

def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S256x1024x128_S1x128_S256x1024x1_2_1_01_0_n_n : DotDims S256x1024x128 S1x128 S256x1024x1 where
  lhsContracting := [2]
  rhsContracting := [1]
  lhsNonContracting := [0, 1]
  rhsNonContracting := [0]
  lhsBatch := []
  rhsBatch := []
  wf := dot_S256x1024x128_S1x128_S256x1024x1_2_1_01_0_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.LibUnitAxes.lean ====
import Idealize.ShloMosaic.Lib.Pipeline.Value
import Idealize.ShloMosaic.Lib.ValueIdx

/-!
  Shape casts that insert unit axes into a matrix or a vector, and broadcasts of a rank-3 array along its unit axes,
  each read at an index written by coordinates. The extents are variables, so the lemmas apply at every size.

  * an [A, B] matrix cast to [A, 1, B] reads, at (a, u, b), the matrix at (a, b);
  * a [B] vector cast to [1, 1, B] reads, at (u, v, b), the vector at b;
  * an [A, 1, B] array broadcast to [A, C, B] reads, at (a, c, b), the array at (a, 0, b);
  * a [1, C, B] array broadcast to [A, C, B] reads, at (a, c, b), the array at (0, c, b);
  * a [1, 1, B] array broadcast to [A, C, B] reads, at (a, c, b), the array at (0, 0, b).
-/

namespace Cert.Lib.UnitAxes

open Idealize.ShloMosaic Idealize.ShloMosaic.ValueIdx

variable {α : Type}

/-- An [A, B] matrix cast to [A, 1, B] keeps its row-major order: entry (a, u, b) is the matrix's entry (a, b). -/
theorem shapeCast_ab_a1b_apply {A B : ℕ} (x : (⟨2, ![A, B]⟩ : Shape).Idx → α)
    (h : (⟨2, ![A, B]⟩ : Shape).ShapeCasts ⟨3, ![A, 1, B]⟩) (a : Fin A) (u : Fin 1) (b : Fin B) :
    shapeCast ⟨3, ![A, 1, B]⟩ x h (ix3 a u b) = x (ix2 a b) :=
  shapeCast_apply x h _ _ (by
    have hu : u.val = 0 := by omega
    rw [Shape.rowMajor_val_three, Shape.rowMajor_val_two]
    show a.val * B + b.val = (a.val * 1 + u.val) * B + b.val
    rw [hu, Nat.mul_one, Nat.add_zero])

/-- A [B] vector cast to [1, 1, B]: entry (u, v, b) is the vector's entry b. -/
theorem shapeCast_b_11b_apply {B : ℕ} (x : (⟨1, ![B]⟩ : Shape).Idx → α)
    (h : (⟨1, ![B]⟩ : Shape).ShapeCasts ⟨3, ![1, 1, B]⟩) (u v : Fin 1) (b : Fin B) :
    shapeCast ⟨3, ![1, 1, B]⟩ x h (ix3 u v b) = x (ix1 b) :=
  shapeCast_apply x h _ _ (by
    have hu : u.val = 0 := by omega
    have hv : v.val = 0 := by omega
    rw [Shape.rowMajor_val_three, Shape.rowMajor_val_one]
    show b.val = (u.val * 1 + v.val) * B + b.val
    rw [hu, hv, Nat.zero_mul, Nat.zero_add])

/-- An [A, 1, B] array broadcast along its middle axis to [A, C, B]: entry (a, c, b) is the array's entry (a, 0, b). -/
theorem broadcastTo_a1b_acb_apply {A C B : ℕ} (x : (⟨3, ![A, 1, B]⟩ : Shape).Idx → α)
    (h : (⟨3, ![A, 1, B]⟩ : Shape).Broadcasts ⟨3, ![A, C, B]⟩) (a : Fin A) (c : Fin C) (b : Fin B) :
    broadcastTo ⟨3, ![A, C, B]⟩ x h (ix3 a c b) = x (ix3 a (0 : Fin 1) b) := by
  refine broadcastTo_apply x h (ix3 a c b) (ix3 a (0 : Fin 1) b) fun ax => ?_
  match ax with
  | ⟨0, _⟩ =>
    show a.val = if A = 1 then 0 else a.val
    split
    · have := a.isLt; omega
    · rfl
  | ⟨1, _⟩ => rfl
  | ⟨2, _⟩ =>
    show b.val = if B = 1 then 0 else b.val
    split
    · have := b.isLt; omega
    · rfl

/-- A [1, C, B] array broadcast along its leading axis to [A, C, B]: entry (a, c, b) is the array's entry (0, c, b). -/
theorem broadcastTo_1cb_acb_apply {A C B : ℕ} (x : (⟨3, ![1, C, B]⟩ : Shape).Idx → α)
    (h : (⟨3, ![1, C, B]⟩ : Shape).Broadcasts ⟨3, ![A, C, B]⟩) (a : Fin A) (c : Fin C) (b : Fin B) :
    broadcastTo ⟨3, ![A, C, B]⟩ x h (ix3 a c b) = x (ix3 (0 : Fin 1) c b) := by
  refine broadcastTo_apply x h (ix3 a c b) (ix3 (0 : Fin 1) c b) fun ax => ?_
  match ax with
  | ⟨0, _⟩ => rfl
  | ⟨1, _⟩ =>
    show c.val = if C = 1 then 0 else c.val
    split
    · have := c.isLt; omega
    · rfl
  | ⟨2, _⟩ =>
    show b.val = if B = 1 then 0 else b.val
    split
    · have := b.isLt; omega
    · rfl

/-- A [1, 1, B] array broadcast along its two leading axes to [A, C, B]: entry (a, c, b) is the array's entry (0, 0, b). -/
theorem broadcastTo_11b_acb_apply {A C B : ℕ} (x : (⟨3, ![1, 1, B]⟩ : Shape).Idx → α)
    (h : (⟨3, ![1, 1, B]⟩ : Shape).Broadcasts ⟨3, ![A, C, B]⟩) (a : Fin A) (c : Fin C) (b : Fin B) :
    broadcastTo ⟨3, ![A, C, B]⟩ x h (ix3 a c b) = x (ix3 (0 : Fin 1) (0 : Fin 1) b) := by
  refine broadcastTo_apply x h (ix3 a c b) (ix3 (0 : Fin 1) (0 : Fin 1) b) fun ax => ?_
  match ax with
  | ⟨0, _⟩ => rfl
  | ⟨1, _⟩ => rfl
  | ⟨2, _⟩ =>
    show b.val = if B = 1 then 0 else b.val
    split
    · have := b.isLt; omega
    · rfl

end Cert.Lib.UnitAxes
-- ==== Proof.Spec.lean ====
import Idealize.ShloMosaic.PureOps.Ideal
import Idealize.ShloMosaic.Lib.ValueIdx

/-!
  The pairwise scorer as one function of its six argument arrays, over the extended reals.

  For a query row q and a document row p the score is a two-layer perceptron applied to the concatenation of the two
  rows. The first layer's weight W1 is [128, 1536]; its left half (columns 0 … 767) multiplies the query row and its
  right half (columns 768 … 1535) the document row, so the hidden unit h is
      max ((Σ_k query(q, k) · W1(h, k) + Σ_k doc(p, k) · W1(h, 768 + k)) + b1(h), 0)
  and the score is Σ_h hiddenUnit(q, p, h) · W2(0, h), plus b2(0).
-/

open scoped BigOperators

noncomputable section

namespace Cert.PairScore

open Idealize.ShloMosaic Idealize.ShloMosaic.ValueIdx

/-- Entry (h, k) of the left half of the first layer's weight. -/
abbrev wLeft (h : Fin 128) (k : Fin 768) : (⟨2, ![128, 1536]⟩ : Shape).Idx :=
  ix2 h (⟨k.val, by have := k.isLt; omega⟩ : Fin 1536)

/-- Entry (h, k) of the right half of the first layer's weight: column 768 + k. -/
abbrev wRight (h : Fin 128) (k : Fin 768) : (⟨2, ![128, 1536]⟩ : Shape).Idx :=
  ix2 h (⟨768 + k.val, by have := k.isLt; omega⟩ : Fin 1536)

/-- The query row q against the left half of row h of the first layer's weight. -/
def queryProj (query : FVec Ideal ⟨2, ![256, 768]⟩ .f32) (W1 : FVec Ideal ⟨2, ![128, 1536]⟩ .f32)
    (q : Fin 256) (h : Fin 128) : EReal :=
  ∑ k : Fin 768, query (ix2 q k) * W1 (wLeft h k)

/-- The document row p against the right half of row h of the first layer's weight. -/
def docProj (doc : FVec Ideal ⟨2, ![1024, 768]⟩ .f32) (W1 : FVec Ideal ⟨2, ![128, 1536]⟩ .f32)
    (p : Fin 1024) (h : Fin 128) : EReal :=
  ∑ k : Fin 768, doc (ix2 p k) * W1 (wRight h k)

/-- Hidden unit h of the pair (q, p): the two projections added, then the bias, then the rectifier. The zero is kept as
    the float word both programs write. -/
def hiddenUnit (query : FVec Ideal ⟨2, ![256, 768]⟩ .f32) (doc : FVec Ideal ⟨2, ![1024, 768]⟩ .f32)
    (W1 : FVec Ideal ⟨2, ![128, 1536]⟩ .f32) (b1 : FVec Ideal ⟨1, ![128]⟩ .f32)
    (q : Fin 256) (p : Fin 1024) (h : Fin 128) : EReal :=
  max ((queryProj query W1 q h + docProj doc W1 p h) + b1 (ix1 h)) (Ideal.ofBits .f32 0x00000000#32)

/-- The score of the pair (q, p): the hidden units against the second layer's one row, plus its bias. -/
def pairScore (query : FVec Ideal ⟨2, ![256, 768]⟩ .f32) (doc : FVec Ideal ⟨2, ![1024, 768]⟩ .f32)
    (W1 : FVec Ideal ⟨2, ![128, 1536]⟩ .f32) (b1 : FVec Ideal ⟨1, ![128]⟩ .f32)
    (W2 : FVec Ideal ⟨2, ![1, 128]⟩ .f32) (b2 : FVec Ideal ⟨1, ![1]⟩ .f32)
    (q : Fin 256) (p : Fin 1024) : EReal :=
  (∑ h : Fin 128, hiddenUnit query doc W1 b1 q p h * W2 (ix2 (0 : Fin 1) h)) + b2 (ix1 (0 : Fin 1))

/-- The whole [256, 1024] result array. -/
def scores (query : FVec Ideal ⟨2, ![256, 768]⟩ .f32) (doc : FVec Ideal ⟨2, ![1024, 768]⟩ .f32)
    (W1 : FVec Ideal ⟨2, ![128, 1536]⟩ .f32) (b1 : FVec Ideal ⟨1, ![128]⟩ .f32)
    (W2 : FVec Ideal ⟨2, ![1, 128]⟩ .f32) (b2 : FVec Ideal ⟨1, ![1]⟩ .f32) :
    FVec Ideal ⟨2, ![256, 1024]⟩ .f32 :=
  fun j => pairScore query doc W1 b1 W2 b2 (j 0) (j 1)

theorem scores_apply (query : FVec Ideal ⟨2, ![256, 768]⟩ .f32) (doc : FVec Ideal ⟨2, ![1024, 768]⟩ .f32)
    (W1 : FVec Ideal ⟨2, ![128, 1536]⟩ .f32) (b1 : FVec Ideal ⟨1, ![128]⟩ .f32)
    (W2 : FVec Ideal ⟨2, ![1, 128]⟩ .f32) (b2 : FVec Ideal ⟨1, ![1]⟩ .f32) (q : Fin 256) (p : Fin 1024) :
    scores query doc W1 b1 W2 b2 (ix2 q p) = pairScore query doc W1 b1 W2 b2 q p := rfl

end Cert.PairScore

end
-- ==== Proof.KernelPayload.lean ====
import proofs.«122875_j154618822964_1_alg».proof.Proof.Gen.KernelIdeal.Skeleton
import proofs.«122875_j154618822964_1_alg».proof.Proof.LibPlainDot
import proofs.«122875_j154618822964_1_alg».proof.Proof.LibUnitAxes
import proofs.«122875_j154618822964_1_alg».proof.Proof.Spec
import Idealize.ShloMosaic.PureOps.Ideal.Laws
import Idealize.ShloMosaic.Lib.ValueIdx
import Idealize.ShloMosaic.Lib.ValueLayout
import Idealize.ShloMosaic.Lib.Pipeline.Value

/-!
  What the kernel body stores, read at one entry (a, b) of its [128, 128] output block, as a function of the seven
  blocks it loads: a block of 128 query rows, a block of 128 document rows, the two transposed halves of the first
  layer's weight, the first layer's bias, the second layer's row and its bias.

  The body forms the two [128, 128] products, lifts them to [128, 128, 128] by inserting a unit axis and
  broadcasting along it (the query product along the middle axis, the document product along the leading one), adds
  them and the bias (broadcast along both leading axes), takes the maximum with zero, multiplies by the second
  layer's row (broadcast likewise) and sums over the last axis; then it adds the second bias. At the ideal values the
  narrowing of the products' operands to sixteen bits is the identity.
-/

open scoped BigOperators

noncomputable section

namespace Cert.KernelIdeal.Payload

open Cert.KernelIdeal Cert.KernelIdeal.Gen Idealize.ShloMosaic Idealize.ShloMosaic.ValueIdx Cert.Lib.UnitAxes Cert.PairScore

/-- A block of 128 rows against a transposed weight half: entry (a, h) is the sum over k of x(a, k) · w(k, h). The
    cast of the weight to its own shape and the narrowing of both operands change nothing at the ideal values. -/
theorem proj_at (x : FVec Ideal S128x768 .f32) (w : FVec Ideal S768x128 .f32) (a h : Fin 128) :
    matmul (F := Ideal) dot_S128x768_S768x128_S128x128_1_0_0_1_n_n none (truncf (F := Ideal) .bf16 x bitsLt_bf16_f32)
        (truncf (F := Ideal) .bf16 (shapeCast S768x128 w shapeCasts_S768x128_S768x128) bitsLt_bf16_f32)
        (constant (F := Ideal) S128x128 .f32 0x00000000#32) (ix2 a h)
      = ∑ k : Fin 768, x (ix2 a k) * w (ix2 k h) := by
  refine (Cert.Lib.PlainDot.matmul_zero_apply dot_S128x768_S768x128_S128x128_1_0_0_1_n_n rfl rfl rfl rfl rfl rfl none _ _ a h).trans ?_
  rw [shapeCast_self]
  rfl

/-- The sum over the last axis of a [128, 128, 128] array, at (a, b), is the sum over h of its entries (a, b, h). -/
theorem laneSum_at (v : FVec Ideal S128x128x128 .f32) (hφ : FKind.Formats .f32)
    (hacc : (0x00000000#32 : BitVec 32) = FKind.add.neutral .f32 hφ) (a b : Fin 128) :
    multiReduction (F := Ideal) .add [2] S128x128 v 0x00000000#32 reduces_S128x128x128_S128x128 hφ hacc (ix2 a b)
      = ∑ h : Fin 128, v (ix3 a b h) := by
  refine (Ideal.multiReduction_add_single v 0x00000000#32 reduces_S128x128x128_S128x128 hφ hacc (ix2 a b)).trans ?_
  exact Finset.sum_congr rfl fun h _ => congrArg v (funext fun ax => Fin.ext (by
    match ax with
    | ⟨0, _⟩ => rfl
    | ⟨1, _⟩ => rfl
    | ⟨2, _⟩ => rfl))

/-- The stored value at entry (a, b) of the output block. -/
theorem pay_at (x0 x1 : FVec Ideal S128x768 .f32) (x2 x3 : FVec Ideal S768x128 .f32) (x4 : FVec Ideal S128 .f32)
    (x5 : FVec Ideal S1x128 .f32) (x6 : FVec Ideal S1 .f32) (a b : Fin 128) :
    k0_pay1 (F := Ideal) x0 x1 x2 x3 x4 x5 x6 (ix2 a b)
      = (∑ h : Fin 128,
          max (((∑ k : Fin 768, x0 (ix2 a k) * x2 (ix2 k h)) + (∑ k : Fin 768, x1 (ix2 b k) * x3 (ix2 k h)))
              + x4 (ix1 h)) (Ideal.ofBits .f32 0x00000000#32)
            * x5 (ix2 (0 : Fin 1) h))
        + x6 (ix1 (0 : Fin 1)) := by
  unfold k0_pay1
  rw [addf_apply]
  refine congrArg₂ (fun s t : EReal => s + t) ?_ ?_
  · refine (laneSum_at _ _ _ a b).trans (Finset.sum_congr rfl fun h _ => ?_)
    rw [mulf_apply, maximumf_apply, addf_apply, addf_apply, broadcast_apply,
      broadcastTo_a1b_acb_apply, shapeCast_ab_a1b_apply, broadcastTo_1cb_acb_apply, shapeCast_ab_1ab_apply,
      broadcastTo_11b_acb_apply, shapeCast_b_11b_apply, broadcastTo_11b_acb_apply, shapeCast_b_11b_apply,
      shapeCast_1a_a_apply, proj_at, proj_at]
    rfl
  · rw [broadcast_apply]
    exact congrArg x6 (funext fun d => Fin.ext (by match d with | ⟨0, _⟩ => rfl))

/-- If row a of the first block is row q of the queries, row b of the second block is row p of the documents, the two
    weight blocks are the transposed halves of the first layer's weight and the three small blocks are the whole small
    arrays, then the stored value at (a, b) is the score of the pair (q, p). -/
theorem pay_score (query : FVec Ideal ⟨2, ![256, 768]⟩ .f32) (doc : FVec Ideal ⟨2, ![1024, 768]⟩ .f32)
    (W1 : FVec Ideal ⟨2, ![128, 1536]⟩ .f32) (b1 : FVec Ideal ⟨1, ![128]⟩ .f32)
    (W2 : FVec Ideal ⟨2, ![1, 128]⟩ .f32) (b2 : FVec Ideal ⟨1, ![1]⟩ .f32)
    (x0 x1 : FVec Ideal S128x768 .f32) (x2 x3 : FVec Ideal S768x128 .f32) (x4 : FVec Ideal S128 .f32)
    (x5 : FVec Ideal S1x128 .f32) (x6 : FVec Ideal S1 .f32) (a b : Fin 128) (q : Fin 256) (p : Fin 1024)
    (h0 : ∀ k : Fin 768, x0 (ix2 a k) = query (ix2 q k)) (h1 : ∀ k : Fin 768, x1 (ix2 b k) = doc (ix2 p k))
    (h2 : ∀ (k : Fin 768) (h : Fin 128), x2 (ix2 k h) = W1 (wLeft h k))
    (h3 : ∀ (k : Fin 768) (h : Fin 128), x3 (ix2 k h) = W1 (wRight h k))
    (h4 : ∀ h : Fin 128, x4 (ix1 h) = b1 (ix1 h))
    (h5 : ∀ h : Fin 128, x5 (ix2 (0 : Fin 1) h) = W2 (ix2 (0 : Fin 1) h))
    (h6 : x6 (ix1 (0 : Fin 1)) = b2 (ix1 (0 : Fin 1))) :
    k0_pay1 (F := Ideal) x0 x1 x2 x3 x4 x5 x6 (ix2 a b) = pairScore query doc W1 b1 W2 b2 q p := by
  rw [pay_at]
  unfold pairScore hiddenUnit queryProj docProj
  simp only [h0, h1, h2, h3, h4, h5, h6]

end Cert.KernelIdeal.Payload

end
-- ==== Proof.KernelScores.lean ====
import proofs.«122875_j154618822964_1_alg».proof.Proof.Gen.KernelIdeal.Value
import proofs.«122875_j154618822964_1_alg».proof.Proof.KernelPayload
import proofs.«122875_j154618822964_1_alg».proof.Proof.Spec
import Idealize.ShloMosaic.Lib.Pipeline.Value
import Idealize.ShloMosaic.Lib.StableHlo.Run
import Idealize.ShloMosaic.Lib.ValueLayout
import Idealize.ShloMosaic.Lib.Tactic

/-!
  The kernel's result array is the pairwise scorer of its arguments.

  The grid is 2 × 8. At point (i, j) the body reads rows 128·i … 128·i + 127 of the queries and rows
  128·j … 128·j + 127 of the documents, and the whole of the five other operands; two of those are arrays the host
  made before the launch, the transposes of the left and the right half of the first layer's weight. It writes block
  (i, j) of the [256, 1024] result. So entry (a, b) of that block is the score of the pair (128·i + a, 128·j + b), and
  the sixteen blocks tile the result.
-/

open scoped BigOperators

noncomputable section

namespace Cert.KernelIdeal.Scores

open Cert.KernelIdeal Cert.KernelIdeal.Gen Cert.KernelIdeal.Value Cert.KernelIdeal.Payload
open Idealize.ShloMosaic Idealize.ShloMosaic.TcCoe Idealize.ShloMosaic.ValueIdx Idealize.SL.Sem Cert.PairScore
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The scorer of the six argument arrays as launched. -/
abbrev result (c : Dev nD) : FVec Ideal S256x1024 .f32 :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The two arrays the host makes before the launch -/

/-- The first: the transpose of the left half of the weight. -/
theorem V_leftT (c : Dev nD) : (V m c main_v1 : FVec Ideal S768x128 .f32)
    = transpose S768x128 [1, 0] (extractStridedSlice S128x768 ![0, 0] (m ((c : Thread nD τ).loc main_arg2))
        slices_S128x1536_S128x768_0_0) transposes_S128x768_S768x128_1_0 := by
  dsimp only [Gen.V, Gen.hostOps0]; after_results

/-- The second: the transpose of the right half. -/
theorem V_rightT (c : Dev nD) : (V m c main_v3 : FVec Ideal S768x128 .f32)
    = transpose S768x128 [1, 0] (extractStridedSlice S128x768 ![0, 768] (m ((c : Thread nD τ).loc main_arg2))
        slices_S128x1536_S128x768_0_768) transposes_S128x768_S768x128_1_0 := by
  dsimp only [Gen.V, Gen.hostOps0]; after_results

theorem leftT_at (c : Dev nD) (k : Fin 768) (h : Fin 128) :
    (V m c main_v1 : FVec Ideal S768x128 .f32) (ix2 k h)
      = (m ((c : Thread nD τ).loc main_arg2) : FVec Ideal S128x1536 .f32) (wLeft h k) := by
  rw [V_leftT]
  refine (transpose_ix2_apply _ transposes_S128x768_S768x128_1_0 k h).trans ?_
  exact extractStridedSlice_apply ![0, 0] _ slices_S128x1536_S128x768_0_0 (ix2 h k) (wLeft h k) (fun a => match a with
    | ⟨0, _⟩ => by show h.val = 0 + h.val; omega
    | ⟨1, _⟩ => by show k.val = 0 + k.val; omega)

theorem rightT_at (c : Dev nD) (k : Fin 768) (h : Fin 128) :
    (V m c main_v3 : FVec Ideal S768x128 .f32) (ix2 k h)
      = (m ((c : Thread nD τ).loc main_arg2) : FVec Ideal S128x1536 .f32) (wRight h k) := by
  rw [V_rightT]
  refine (transpose_ix2_apply _ transposes_S128x768_S768x128_1_0 k h).trans ?_
  exact extractStridedSlice_apply ![0, 768] _ slices_S128x1536_S128x768_0_768 (ix2 h k) (wRight h k) (fun a => match a with
    | ⟨0, _⟩ => by show h.val = 0 + h.val; omega
    | ⟨1, _⟩ => by show 768 + k.val = 768 + k.val; omega)

/-! ## The block indices over the grid -/

/-- The query block moves with the result block's row index, the document block with its column index, and the five
    other blocks stay at the origin; the result block's indices stay inside 2 × 8. Decided over the sixteen points. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) ≤ 1 ∧ win0_7.index t (1 : Fin 2) ≤ 7 :=
  (by decide +kernel : ∀ t : Fin grid0.N, _)

/-- Every block of the result is some point's. -/
theorem idx_onto : ∀ (q0 : Fin 2) (q1 : Fin 8), ∃ t : Fin cfg0.N, win0_7.index t = ![q0.val, q1.val] :=
  (by decide +kernel : ∀ (q0 : Fin 2) (q1 : Fin 8), ∃ t : Fin grid0.N, win0_7.index t = ![q0.val, q1.val])

/-! ## Each loaded block as entries of the arguments -/

theorem queryBlk_at (c : Dev nD) (t : Fin cfg0.N) (a : Fin 128) (k : Fin 768) (q : Fin 256)
    (hq : q.val = win0_7.index t (0 : Fin 2) * 128 + a.val) :
    (iblk m c 0 t : FVec Ideal S128x768 .f32) (ix2 a k)
      = (m ((c : Thread nD τ).loc main_arg0) : FVec Ideal S256x768 .f32) (ix2 q k) := by
  obtain ⟨e0, e1, -⟩ := idx_facts t
  unfold iblk
  rw [View.read_apply]
  show V m c main_arg0 _ = _
  rw [V_main_arg0]
  refine congrArg _ (funext fun ax => Fin.ext ?_)
  match ax with
  | ⟨0, _⟩ => show win0_0.index t (0 : Fin 2) * 128 + 1 * a.val = q.val; omega
  | ⟨1, _⟩ => show win0_0.index t (1 : Fin 2) * 768 + 1 * k.val = k.val; omega

theorem docBlk_at (c : Dev nD) (t : Fin cfg0.N) (b : Fin 128) (k : Fin 768) (p : Fin 1024)
    (hp : p.val = win0_7.index t (1 : Fin 2) * 128 + b.val) :
    (iblk m c 1 t : FVec Ideal S128x768 .f32) (ix2 b k)
      = (m ((c : Thread nD τ).loc main_arg1) : FVec Ideal S1024x768 .f32) (ix2 p k) := by
  obtain ⟨-, -, e2, e3, -⟩ := idx_facts t
  unfold iblk
  rw [View.read_apply]
  show V m c main_arg1 _ = _
  rw [V_main_arg1]
  refine congrArg _ (funext fun ax => Fin.ext ?_)
  match ax with
  | ⟨0, _⟩ => show win0_1.index t (0 : Fin 2) * 128 + 1 * b.val = p.val; omega
  | ⟨1, _⟩ => show win0_1.index t (1 : Fin 2) * 768 + 1 * k.val = k.val; omega

theorem leftBlk_at (c : Dev nD) (t : Fin cfg0.N) (k : Fin 768) (h : Fin 128) :
    (iblk m c 2 t : FVec Ideal S768x128 .f32) (ix2 k h)
      = (m ((c : Thread nD τ).loc main_arg2) : FVec Ideal S128x1536 .f32) (wLeft h k) := by
  obtain ⟨-, -, -, -, e4, e5, -⟩ := idx_facts t
  refine Eq.trans ?_ (leftT_at m c k h)
  unfold iblk
  rw [View.read_apply]
  show V m c main_v1 _ = V m c main_v1 _
  refine congrArg _ (funext fun ax => Fin.ext ?_)
  match ax with
  | ⟨0, _⟩ => show win0_2.index t (0 : Fin 2) * 768 + 1 * k.val = k.val; omega
  | ⟨1, _⟩ => show win0_2.index t (1 : Fin 2) * 128 + 1 * h.val = h.val; omega

theorem rightBlk_at (c : Dev nD) (t : Fin cfg0.N) (k : Fin 768) (h : Fin 128) :
    (iblk m c 3 t : FVec Ideal S768x128 .f32) (ix2 k h)
      = (m ((c : Thread nD τ).loc main_arg2) : FVec Ideal S128x1536 .f32) (wRight h k) := by
  obtain ⟨-, -, -, -, -, -, e6, e7, -⟩ := idx_facts t
  refine Eq.trans ?_ (rightT_at m c k h)
  unfold iblk
  rw [View.read_apply]
  show V m c main_v3 _ = V m c main_v3 _
  refine congrArg _ (funext fun ax => Fin.ext ?_)
  match ax with
  | ⟨0, _⟩ => show win0_3.index t (0 : Fin 2) * 768 + 1 * k.val = k.val; omega
  | ⟨1, _⟩ => show win0_3.index t (1 : Fin 2) * 128 + 1 * h.val = h.val; omega

theorem bias1Blk_at (c : Dev nD) (t : Fin cfg0.N) (h : Fin 128) :
    (iblk m c 4 t : FVec Ideal S128 .f32) (ix1 h)
      = (m ((c : Thread nD τ).loc main_arg3) : FVec Ideal S128 .f32) (ix1 h) := by
  obtain ⟨-, -, -, -, -, -, -, -, e8, -⟩ := idx_facts t
  unfold iblk
  rw [View.read_apply]
  show V m c main_arg3 _ = _
  rw [V_main_arg3]
  refine congrArg _ (funext fun ax => Fin.ext ?_)
  match ax with
  | ⟨0, _⟩ => show win0_4.index t (0 : Fin 1) * 128 + 1 * h.val = h.val; omega

theorem row2Blk_at (c : Dev nD) (t : Fin cfg0.N) (h : Fin 128) :
    (iblk m c 5 t : FVec Ideal S1x128 .f32) (ix2 (0 : Fin 1) h)
      = (m ((c : Thread nD τ).loc main_arg4) : FVec Ideal S1x128 .f32) (ix2 (0 : Fin 1) h) := by
  obtain ⟨-, -, -, -, -, -, -, -, -, e9, e10, -⟩ := idx_facts t
  unfold iblk
  rw [View.read_apply]
  show V m c main_arg4 _ = _
  rw [V_main_arg4]
  refine congrArg _ (funext fun ax => Fin.ext ?_)
  match ax with
  | ⟨0, _⟩ => show win0_5.index t (0 : Fin 2) * 1 + 1 * 0 = 0; omega
  | ⟨1, _⟩ => show win0_5.index t (1 : Fin 2) * 128 + 1 * h.val = h.val; omega

theorem bias2Blk_at (c : Dev nD) (t : Fin cfg0.N) :
    (iblk m c 6 t : FVec Ideal S1 .f32) (ix1 (0 : Fin 1))
      = (m ((c : Thread nD τ).loc main_arg5) : FVec Ideal S1 .f32) (ix1 (0 : Fin 1)) := by
  obtain ⟨-, -, -, -, -, -, -, -, -, -, -, e11, -⟩ := idx_facts t
  unfold iblk
  rw [View.read_apply]
  show V m c main_arg5 _ = _
  rw [V_main_arg5]
  refine congrArg _ (funext fun ax => Fin.ext ?_)
  match ax with
  | ⟨0, _⟩ => show win0_6.index t (0 : Fin 1) * 1 + 1 * 0 = 0; omega

/-! ## What a point writes back, the cover, the array -/

/-- Point t writes back block t of the scorer. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz2]
  simp only [View.ld_unit_zero (S := S128x768) hz2, View.ld_unit_zero (S := S768x128) hz2,
    View.ld_unit_zero (S := S128) hz1, View.ld_unit_zero (S := S1x128) hz2, View.ld_unit_zero (S := S1) hz1]
  obtain ⟨-, -, -, -, -, -, -, -, -, -, -, -, b0, b1⟩ := idx_facts t
  funext j
  obtain ⟨a, b, rfl⟩ : ∃ (a : Fin 128) (b : Fin 128), j = ix2 a b := ⟨j 0, j 1, eq_ix2 j⟩
  have ha : a.val < 128 := a.isLt
  have hb : b.val < 128 := b.isLt
  have e : ((cfg0.win 7).blk t).view.emb (ix2 a b)
      = ix2 (⟨win0_7.index t (0 : Fin 2) * 128 + a.val, by omega⟩ : Fin 256)
          (⟨win0_7.index t (1 : Fin 2) * 128 + b.val, by omega⟩ : Fin 1024) := by
    funext ax; apply Fin.ext
    match ax with
    | ⟨0, _⟩ => show win0_7.index t (0 : Fin 2) * 128 + 1 * a.val = win0_7.index t (0 : Fin 2) * 128 + a.val; omega
    | ⟨1, _⟩ => show win0_7.index t (1 : Fin 2) * 128 + 1 * b.val = win0_7.index t (1 : Fin 2) * 128 + b.val; omega
  show k0_pay1 (F := Ideal) (iblk m c 0 t) (iblk m c 1 t) (iblk m c 2 t) (iblk m c 3 t) (iblk m c 4 t) (iblk m c 5 t)
      (iblk m c 6 t) (ix2 a b) = result m c (((cfg0.win 7).blk t).view.emb (ix2 a b))
  rw [e]
  exact pay_score (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))
    (iblk m c 0 t) (iblk m c 1 t) (iblk m c 2 t) (iblk m c 3 t) (iblk m c 4 t) (iblk m c 5 t) (iblk m c 6 t) a b
    ⟨win0_7.index t (0 : Fin 2) * 128 + a.val, by omega⟩ ⟨win0_7.index t (1 : Fin 2) * 128 + b.val, by omega⟩
    (fun k => queryBlk_at m c t a k _ rfl) (fun k => docBlk_at m c t b k _ rfl)
    (fun k h => leftBlk_at m c t k h) (fun k h => rightBlk_at m c t k h)
    (fun h => bias1Blk_at m c t h) (fun h => row2Blk_at m c t h) (bias2Blk_at m c t)

/-- An index of the result lies in point t's block iff each coordinate lies in the block's range on its axis. -/
theorem mem_blk (t : Fin cfg0.N) (i : S256x1024.Idx) :
    i ∈ ((cfg0.win 7).blk t).view.set ↔ ∀ a : Fin 2, win0_7.index t a * S128x128.size a ≤ (i a).val
      ∧ (i a).val < win0_7.index t a * S128x128.size a + S128x128.size a := by
  show i ∈ ((View.whole main_v4).slice (win0_7.rect t)).set ↔ _
  rw [View.set_slice_whole, Rect.mem_set_unit]
  exact Iff.rfl

/-- The sixteen blocks cover the result: entry (r, s) lies in the block of the point with indices (r / 128, s / 128). -/
theorem cover (i : S256x1024.Idx) :
    ∃ t : Fin cfg0.N, (cfg0.win 7).flush t = true ∧ i ∈ ((cfg0.win 7).blk t).view.set := by
  have hi0 : (i 0).val < 256 := (i 0).isLt
  have hi1 : (i 1).val < 1024 := (i 1).isLt
  obtain ⟨t, ht⟩ := idx_onto ⟨(i 0).val / 128, by omega⟩ ⟨(i 1).val / 128, by omega⟩
  have q0 : win0_7.index t (0 : Fin 2) = (i 0).val / 128 := congrFun ht 0
  have q1 : win0_7.index t (1 : Fin 2) = (i 1).val / 128 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 128 ≤ (i 1).val ∧ (i 1).val < win0_7.index t (1 : Fin 2) * 128 + 128; omega

/-- The result array after the run is the scorer of the arguments. -/
theorem final (c : Dev nD) : (dats m 0 c).arrAt 7 cfg0.N = result m c :=
  (dats m 0 c).arrAt_eq_of_cover 7 (result m c) (fun t _ => flushed_eq m c t) cover

/-- The run, read: the result array at the scorer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (run_blocks m ρ)

end Cert.KernelIdeal.Scores

end
-- ==== Proof.RefScore.lean ====
import proofs.«122875_j154618822964_1_alg».proof.Proof.Gen.ReferenceIdeal.Read
import proofs.«122875_j154618822964_1_alg».proof.Proof.Spec

/-!
  The reference program computes the pairwise scorer. Its result is read stage by stage, inside out:
  the two transposed halves of the first layer's weight, the two projections, the hidden units, and the contraction
  of the hidden units against the second layer's row with the bias added; the last reshape drops a unit axis.
-/

open scoped BigOperators

noncomputable section

namespace Cert.ReferenceIdeal.RefScore

open Cert.ReferenceIdeal Cert.ReferenceIdeal.Read Idealize.ShloMosaic Idealize.ShloMosaic.ValueIdx Cert.PairScore

variable (x0 : (⟨S256x768, .f32⟩ : BufTy).Contents (Elt Ideal)) (x1 : (⟨S1024x768, .f32⟩ : BufTy).Contents (Elt Ideal))
  (x2 : (⟨S128x1536, .f32⟩ : BufTy).Contents (Elt Ideal)) (x3 : (⟨S128, .f32⟩ : BufTy).Contents (Elt Ideal))
  (x4 : (⟨S1x128, .f32⟩ : BufTy).Contents (Elt Ideal)) (x5 : (⟨S1, .f32⟩ : BufTy).Contents (Elt Ideal))

/-- The transposed left half of the weight, at (k, h), is the weight at (h, k). -/
theorem leftT_at (k : Fin 768) (h : Fin 128) : val_main_v1 (F := Ideal) x2 (ix2 k h) = x2 (wLeft h k) := by
  rw [val_main_v1_apply, val_main_v0_apply]
  exact congrArg x2 (funext fun a => Fin.ext (by match a with | ⟨0, _⟩ => rfl | ⟨1, _⟩ => rfl))

/-- The transposed right half of the weight, at (k, h), is the weight at (h, 768 + k). -/
theorem rightT_at (k : Fin 768) (h : Fin 128) : val_main_v4 (F := Ideal) x2 (ix2 k h) = x2 (wRight h k) := by
  rw [val_main_v4_apply, val_main_v3_apply]
  exact congrArg x2 (funext fun a => Fin.ext (by match a with | ⟨0, _⟩ => rfl | ⟨1, _⟩ => rfl))

/-- The first matrix product is the query projection. -/
theorem queryProj_at (q : Fin 256) (h : Fin 128) :
    val_main_v2 (F := Ideal) x0 x2 (ix2 q h) = queryProj x0 x2 q h := by
  rw [val_main_v2_apply]
  unfold queryProj
  refine Finset.sum_congr rfl fun k _ => ?_
  rw [show ridx_main_v2 (ix2 q h) k = ix2 k h from
      funext fun a => Fin.ext (by match a with | ⟨0, _⟩ => rfl | ⟨1, _⟩ => rfl),
    show lidx_main_v2 (ix2 q h) k = ix2 q k from
      funext fun a => Fin.ext (by match a with | ⟨0, _⟩ => rfl | ⟨1, _⟩ => rfl),
    leftT_at]

/-- The second matrix product is the document projection. -/
theorem docProj_at (p : Fin 1024) (h : Fin 128) :
    val_main_v5 (F := Ideal) x1 x2 (ix2 p h) = docProj x1 x2 p h := by
  rw [val_main_v5_apply]
  unfold docProj
  refine Finset.sum_congr rfl fun k _ => ?_
  rw [show ridx_main_v5 (ix2 p h) k = ix2 k h from
      funext fun a => Fin.ext (by match a with | ⟨0, _⟩ => rfl | ⟨1, _⟩ => rfl),
    show lidx_main_v5 (ix2 p h) k = ix2 p k from
      funext fun a => Fin.ext (by match a with | ⟨0, _⟩ => rfl | ⟨1, _⟩ => rfl),
    rightT_at]

/-- Before the rectifier: the two projections broadcast over each other's row axis and added, then the bias. -/
theorem preact_at (q : Fin 256) (p : Fin 1024) (h : Fin 128) :
    val_main_v13 (F := Ideal) x0 x1 x2 x3 (ix3 q p h)
      = (queryProj x0 x2 q h + docProj x1 x2 p h) + x3 (ix1 h) := by
  rw [val_main_v13_apply, val_main_v10_apply, val_main_v8_apply, val_main_v6_apply, val_main_v9_apply,
    val_main_v7_apply, val_main_v12_apply, val_main_v11_apply]
  rw [show idx_main_v6 (idx_main_v8 (ix3 q p h)) = ix2 q h from
      funext fun a => Fin.ext (by match a with | ⟨0, _⟩ => rfl | ⟨1, _⟩ => rfl),
    show idx_main_v7 (idx_main_v9 (ix3 q p h)) = ix2 p h from
      funext fun a => Fin.ext (by match a with | ⟨0, _⟩ => rfl | ⟨1, _⟩ => rfl),
    show idx_main_v11 (idx_main_v12 (ix3 q p h)) = ix1 h from
      funext fun a => Fin.ext (by match a with | ⟨0, _⟩ => rfl),
    queryProj_at, docProj_at]
  rfl

/-- After the rectifier: the hidden unit. -/
theorem hidden_at (q : Fin 256) (p : Fin 1024) (h : Fin 128) :
    val_main_v14 (F := Ideal) x0 x1 x2 x3 (ix3 q p h) = hiddenUnit x0 x1 x2 x3 q p h := by
  rw [val_main_v14_apply, preact_at, val_main_call0_v0_apply, val_main_call0_cst_apply]
  rfl

/-- The reference's result array is the pairwise scorer of its arguments. -/
theorem result_eq : val_main_v19 (F := Ideal) x0 x1 x2 x3 x4 x5 = scores x0 x1 x2 x3 x4 x5 := by
  funext j
  obtain ⟨q, p, rfl⟩ : ∃ (q : Fin 256) (p : Fin 1024), j = ix2 q p := ⟨j 0, j 1, eq_ix2 j⟩
  have hq : q.val < 256 := q.isLt
  have hp : p.val < 1024 := p.isLt
  have e : idx_main_v19 (ix2 q p) = ix3 q p (0 : Fin 1) := funext fun a => Fin.ext (by
    match a with
    | ⟨0, _⟩ => show (q.val * 1024 + p.val) / 1024 = q.val; omega
    | ⟨1, _⟩ => show (q.val * 1024 + p.val) / 1 % 1024 = p.val; omega
    | ⟨2, _⟩ => rfl)
  rw [val_main_v19_apply, e, val_main_v18_apply, val_main_v15_apply, val_main_v17_apply, val_main_v16_apply,
    scores_apply]
  unfold pairScore
  refine congrArg₂ (fun s t : EReal => s + t) (Finset.sum_congr rfl fun h _ => ?_) (congrArg x5 ?_)
  · rw [show lidx_main_v15 (ix3 q p (0 : Fin 1)) h = ix3 q p h from
        funext fun a => Fin.ext (by match a with | ⟨0, _⟩ => rfl | ⟨1, _⟩ => rfl | ⟨2, _⟩ => rfl),
      show ridx_main_v15 (ix3 q p (0 : Fin 1)) h = ix2 (0 : Fin 1) h from
        funext fun a => Fin.ext (by match a with | ⟨0, _⟩ => rfl | ⟨1, _⟩ => rfl),
      hidden_at]
  · exact funext fun a => Fin.ext (by match a with | ⟨0, _⟩ => rfl)

end Cert.ReferenceIdeal.RefScore

end
-- ==== Proof.lean ====
/- A pairwise scorer on a [256, 768] array of query rows and a [1024, 768] array of document rows: for each pair
   (q, p) a two-layer perceptron of the concatenated rows,
       score(q, p) = Σ_h max ((Σ_k query(q, k) · W1(h, k) + Σ_k doc(p, k) · W1(h, 768 + k)) + b1(h), 0) · W2(0, h) + b2(0).
   The kernel tiles the [256, 1024] result into sixteen [128, 128] blocks; for each block it multiplies 128 query rows
   and 128 document rows by the transposed halves of W1, lifts the two products to [128, 128, 128] by broadcasting,
   adds them and the bias, rectifies, multiplies by W2's row and sums over the last axis. The reference forms the two
   full products, broadcasts them to [256, 1024, 128] the same way, rectifies, contracts the last axis against W2's
   row and adds the bias. Over the extended reals both are the function above term for term — the same grouping of
   the sums, the same order of the factors, the one literal the zero of the rectifier on both sides — so no law of
   arithmetic is needed and the precondition is not opened: what is proved is that each program's result, index by
   index, is that function of the argument arrays (Proof/Spec.lean; the reference in Proof/RefScore.lean; the kernel's
   stored value in Proof/KernelPayload.lean and its result array, block by block, in Proof/KernelScores.lean). -/
import proofs.«122875_j154618822964_1_alg».proof.Defs
import proofs.«122875_j154618822964_1_alg».proof.Proof.Gen.Kernel
import proofs.«122875_j154618822964_1_alg».proof.Proof.Gen.Kernel.Skeleton
import proofs.«122875_j154618822964_1_alg».proof.Proof.Gen.Kernel.Launch
import proofs.«122875_j154618822964_1_alg».proof.Proof.Gen.Kernel.Points
import proofs.«122875_j154618822964_1_alg».proof.Proof.Gen.Kernel.Frame
import proofs.«122875_j154618822964_1_alg».proof.Proof.Gen.KernelIdeal
import proofs.«122875_j154618822964_1_alg».proof.Proof.Gen.KernelIdeal.Skeleton
import proofs.«122875_j154618822964_1_alg».proof.Proof.Gen.KernelIdeal.Launch
import proofs.«122875_j154618822964_1_alg».proof.Proof.Gen.KernelIdeal.Points
import proofs.«122875_j154618822964_1_alg».proof.Proof.Gen.KernelIdeal.Frame
import proofs.«122875_j154618822964_1_alg».proof.Proof.Gen.ReferenceIdeal
import proofs.«122875_j154618822964_1_alg».proof.Proof.Gen.Pre_finite_inputs
import proofs.«122875_j154618822964_1_alg».proof.Proof.Gen.KernelIdeal.Value
import proofs.«122875_j154618822964_1_alg».proof.Proof.Gen.ReferenceIdeal.Run
import proofs.«122875_j154618822964_1_alg».proof.Proof.Gen.ReferenceIdeal.Read
import proofs.«122875_j154618822964_1_alg».proof.Proof.KernelScores
import proofs.«122875_j154618822964_1_alg».proof.Proof.RefScore
import Idealize.ShloMosaic.Adequacy
import Idealize.ShloMosaic.Init

noncomputable section

namespace Cert.Proof

open Idealize.ShloMosaic Idealize.ShloMosaic.TcCoe Idealize.SL.Sem

/-- The kernel at the word level runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- Both programs end with the scorer of the argument arrays in their result: the kernel's sixteen blocks assemble it
    (`Scores.run`), the reference's last stage is it (`RefScore.result_eq`), and the memories agree on the arguments. -/
theorem algebraic : Cert.algebraic_KernelIdeal_ReferenceIdeal := by
  intro m ρ m' ρ' _ hagree
  refine ⟨fun c => Cert.KernelIdeal.Scores.result m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v19_eq, Cert.ReferenceIdeal.RefScore.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
